-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x4096x4096 : Shape := ⟨3, ![2, 4096, 4096]⟩
abbrev S2x256x256 : Shape := ⟨3, ![2, 256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S2x256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x256 .f32) (main_arg1 : FVec F S2x4096x4096 .f32) (main_arg2 : FVec F S2x256x256 .f32) (main_arg3 : FVec F S256 .f32) (main_arg4 : FVec F S2x256x256 .f32) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x256 : Shape := ⟨2, ![4096, 256]⟩
abbrev S2x4096x4096 : Shape := ⟨3, ![2, 4096, 4096]⟩
abbrev S2x256x256 : Shape := ⟨3, ![2, 256, 256]⟩
abbrev S256 : Shape := ⟨1, ![256]⟩
abbrev S1x256 : Shape := ⟨2, ![1, 256]⟩
abbrev S2x256x4096 : Shape := ⟨3, ![2, 256, 4096]⟩
abbrev S256x256 : Shape := ⟨2, ![256, 256]⟩
abbrev S1x256x4096 : Shape := ⟨3, ![1, 256, 4096]⟩
abbrev S256x4096 : Shape := ⟨2, ![256, 4096]⟩
abbrev S1x256x256 : Shape := ⟨3, ![1, 256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S2x256x256, .f32⟩
  | .hbm, ⟨3, _⟩ => ⟨S256, .f32⟩
  | .hbm, ⟨4, _⟩ => ⟨S2x256x256, .f32⟩
  | .hbm, ⟨5, _⟩ => ⟨S256, .f32⟩
  | .hbm, ⟨6, _⟩ => ⟨S4096x256, .bf16⟩
  | .hbm, ⟨7, _⟩ => ⟨S1x256, .f32⟩
  | .hbm, ⟨8, _⟩ => ⟨S1x256, .f32⟩
  | .hbm, ⟨9, _⟩ => ⟨S4096x256, .bf16⟩
  | .hbm, ⟨10, _⟩ => ⟨S4096x256, .f32⟩
  | .local _ .vmem, ⟨0, _⟩ => ⟨S2x256x4096, .f32⟩
  | .local _ .vmem, ⟨1, _⟩ => ⟨S2x256x4096, .f32⟩
  | .local _ .vmem, ⟨2, _⟩ => ⟨S4096x256, .bf16⟩
  | .local _ .vmem, ⟨3, _⟩ => ⟨S2x256x256, .f32⟩
  | .local _ .vmem, ⟨4, _⟩ => ⟨S1x256, .f32⟩
  | .local _ .vmem, ⟨5, _⟩ => ⟨S256x256, .bf16⟩
  | .local _ .vmem, ⟨6, _⟩ => ⟨S256x256, .bf16⟩
  | .local _ .vmem, ⟨7, _⟩ => ⟨S2x256x4096, .f32⟩
  | .local _ .vmem, ⟨8, _⟩ => ⟨S2x256x4096, .f32⟩
  | .local _ .vmem, ⟨9, _⟩ => ⟨S4096x256, .bf16⟩
  | .local _ .vmem, ⟨10, _⟩ => ⟨S2x256x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256x4096_S1x256x4096_1_0_0 : ∀ a, (![1, 0, 0] : Fin 3 → Nat) a + S1x256x4096.size a ≤ S2x256x4096.size a
  inb_S2x256x256_S1x256x256_1_0_0 : ∀ a, (![1, 0, 0] : Fin 3 → Nat) a + S1x256x256.size a ≤ S2x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S2x4096x4096.size a
  hwx0_0 : ∀ i : grid0.Coords, EltTy.bits .f32 = 32 ∨ (Rect.block (s := S2x4096x4096) S2x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256x256.size a ≤ S2x256x256.size a
  hwx0_2 : ∀ i : grid0.Coords, EltTy.bits .f32 = 32 ∨ (Rect.block (s := S2x256x256) S2x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .bf16 = 32 ∨ (Rect.block (s := S4096x256) S256x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x4096.size a ≤ S2x4096x4096.size a
  hwx1_0 : ∀ i : grid1.Coords, EltTy.bits .f32 = 32 ∨ (Rect.block (s := S2x4096x4096) S2x256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x256x256.size a ≤ S2x256x256.size a
  hwx1_2 : ∀ i : grid1.Coords, EltTy.bits .f32 = 32 ∨ (Rect.block (s := S2x256x256) S2x256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .f32 = 32 ∨ (Rect.block (s := S4096x256) S256x256.size (cc1_transform_4 i) (hinb1_4 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2x256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x256 : Shape := ⟨2, ![4096, 256]⟩
abbrev S2x4096x4096 : Shape := ⟨3, ![2, 4096, 4096]⟩
abbrev S2x256x256 : Shape := ⟨3, ![2, 256, 256]⟩
abbrev S256 : Shape := ⟨1, ![256]⟩
abbrev S_ : Shape := ⟨0, ![]⟩
abbrev S256x2x256 : Shape := ⟨3, ![256, 2, 256]⟩
abbrev S256x512 : Shape := ⟨2, ![256, 512]⟩
abbrev S1x256 : Shape := ⟨2, ![1, 256]⟩
abbrev S2x128x4096 : Shape := ⟨3, ![2, 128, 4096]⟩
abbrev S128x256 : Shape := ⟨2, ![128, 256]⟩
abbrev S4096x512 : Shape := ⟨2, ![4096, 512]⟩
abbrev S1x128x4096 : Shape := ⟨3, ![1, 128, 4096]⟩
abbrev S128x4096 : Shape := ⟨2, ![128, 4096]⟩

abbrev nBuf : Space → Nat
  | .hbm => 29
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S2x256x256, .f32⟩
  | .hbm, ⟨3, _⟩ => ⟨S256, .f32⟩
  | .hbm, ⟨4, _⟩ => ⟨S2x256x256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S4096x256, .f32⟩
  | .hbm, ⟨9, _⟩ => ⟨S_, .i32⟩
  | .hbm, ⟨10, _⟩ => ⟨S_, .f32⟩
  | .hbm, ⟨11, _⟩ => ⟨S2x256x256, .f32⟩
  | .hbm, ⟨12, _⟩ => ⟨S256x2x256, .f32⟩
  | .hbm, ⟨13, _⟩ => ⟨S256x512, .f32⟩
  | .hbm, ⟨14, _⟩ => ⟨S_, .i32⟩
  | .hbm, ⟨15, _⟩ => ⟨S_, .f32⟩
  | .hbm, ⟨16, _⟩ => ⟨S2x256x256, .f32⟩
  | .hbm, ⟨17, _⟩ => ⟨S256x2x256, .f32⟩
  | .hbm, ⟨18, _⟩ => ⟨S256x512, .f32⟩
  | .hbm, ⟨19, _⟩ => ⟨S_, .i32⟩
  | .hbm, ⟨20, _⟩ => ⟨S_, .f32⟩
  | .hbm, ⟨21, _⟩ => ⟨S256, .f32⟩
  | .hbm, ⟨22, _⟩ => ⟨S1x256, .f32⟩
  | .hbm, ⟨23, _⟩ => ⟨S_, .i32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .local _ .vmem, ⟨0, _⟩ => ⟨S4096x256, .f32⟩
  | .local _ .vmem, ⟨1, _⟩ => ⟨S256x512, .f32⟩
  | .local _ .vmem, ⟨2, _⟩ => ⟨S1x256, .f32⟩
  | .local _ .vmem, ⟨3, _⟩ => ⟨S2x128x4096, .f32⟩
  | .local _ .vmem, ⟨4, _⟩ => ⟨S2x128x4096, .f32⟩
  | .local _ .vmem, ⟨5, _⟩ => ⟨S128x256, .f32⟩
  | .local _ .vmem, ⟨6, _⟩ => ⟨S128x256, .f32⟩
  | .local _ .vmem, ⟨7, _⟩ => ⟨S4096x256, .f32⟩
  | .local _ .vmem, ⟨8, _⟩ => ⟨S256x512, .f32⟩
  | .local _ .vmem, ⟨9, _⟩ => ⟨S1x256, .f32⟩
  | .local _ .vmem, ⟨10, _⟩ => ⟨S2x128x4096, .f32⟩
  | .local _ .vmem, ⟨11, _⟩ => ⟨S2x128x4096, .f32⟩
  | .local _ .vmem, ⟨12, _⟩ => ⟨S128x256, .f32⟩
  | .local _ .vmem, ⟨13, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_call0_v0 : Ref sig .tc := ⟨.hbm, 7, rfl⟩
abbrev main_call0_v0 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_call2_v0 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_call3_v0 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_call4_v0 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S4096x256_S4096x256_000_000 : S4096x256.Pads (![0, 0] : Fin 2 → Nat) ![0, 0] ![0, 0] S4096x256
  h_S_ : 0 < S_.numel
  pads_S2x256x256_S2x256x256_000_000_000 : S2x256x256.Pads (![0, 0, 0] : Fin 3 → Nat) ![0, 0, 0] ![0, 0, 0] S2x256x256
  transposes_S2x256x256_S256x2x256_1_0_2 : S2x256x256.Transposes [1, 0, 2] S256x2x256
  shapeCasts_S256x2x256_S256x512 : S256x2x256.ShapeCasts S256x512
  pads_S256_S256_000 : S256.Pads (![0] : Fin 1 → Nat) ![0] ![0] S256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x128x4096_S1x128x4096_0_0_0 : ∀ a, (![0, 0, 0] : Fin 3 → Nat) a + S1x128x4096.size a ≤ S2x128x4096.size a
  h_S1x128x4096 : 0 < S1x128x4096.numel
  shapeCasts_S1x128x4096_S128x4096 : S1x128x4096.ShapeCasts S128x4096
  slices_S4096x512_o0_0_S4096x256 : S4096x512.Slices ![0, 0] S4096x256
  inb_S2x128x4096_S1x128x4096_1_0_0 : ∀ a, (![1, 0, 0] : Fin 3 → Nat) a + S1x128x4096.size a ≤ S2x128x4096.size a
  slices_S4096x512_o0_256_S4096x256 : S4096x512.Slices ![0, 256] S4096x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S4096x256_S256x512_S4096x512_1_0_0_1_n_n_wf : DotDims.WF S4096x256 S256x512 S4096x512 [1] [0] [0] [1] [] []
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x4096.size a ≤ S2x4096x4096.size a
  hwx0_3 : ∀ i : grid0.Coords, EltTy.bits .f32 = 32 ∨ (Rect.block (s := S2x4096x4096) S2x128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S4096x256.size a
  hwx0_4 : ∀ i : grid0.Coords, EltTy.bits .f32 = 32 ∨ (Rect.block (s := S4096x256) S128x256.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128x4096.size a ≤ S2x4096x4096.size a
  hwx1_3 : ∀ i : grid1.Coords, EltTy.bits .f32 = 32 ∨ (Rect.block (s := S2x4096x4096) S2x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S4096x256.size a
  hwx1_4 : ∀ i : grid1.Coords, EltTy.bits .f32 = 32 ∨ (Rect.block (s := S4096x256) S128x256.size (cc1_transform_4 i) (hinb1_4 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_call0_v0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2x128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v11) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S128x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KPay.lean ====
/-
  What the kernel's layer body computes, entry by entry.

  The body of either pallas_call loads the whole feature matrix `h`, the two row tiles of the adjacency
  matrices (as `[1, 256, 4096]` slabs), the two weight matrices (as `[1, 256, 256]` slabs) and the bias row,
  and stores, for row `p` of the tile and feature `q`,
  `max (Σ_k (Σ_n A0 p n · h n k) · W0 k q + Σ_k (Σ_n A1 p n · h n k) · W1 k q + b q) 0`:
  two matrix products per relation into a zero accumulator, their sum, the bias row spread over the rows, and
  the maximum with zero.  Changes of float format are the identity on extended reals.
-/
import proofs.«109948_g2000505246573141_pallasbulk_690_2_alg».proof.Proof.Gen.KernelIdeal.Skeleton
import proofs.«109948_g2000505246573141_pallasbulk_690_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Idealize.ShloMosaic Idealize.ShloMosaic.ValueIdx Idealize.ShloMosaic.PlainDot
open Cert.KernelIdeal Cert.KernelIdeal.Gen

/-- A product with the plain dimension numbers into the zero accumulator, whatever the operands' float formats. -/
theorem matmul_zero_at {R K N : ℕ} {d : DotDims (⟨2, ![R, K]⟩ : Shape) (⟨2, ![K, N]⟩ : Shape) (⟨2, ![R, N]⟩ : Shape)}
    (h : IsPlain d) (prec : Option ContractPrecision) {φ₁ φ₂ : FTy}
    (l : FVec Ideal (⟨2, ![R, K]⟩ : Shape) φ₁) (r : FVec Ideal (⟨2, ![K, N]⟩ : Shape) φ₂) (p : Fin R) (q : Fin N) :
    matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

theorem plain_big : IsPlain dot_S256x4096_S4096x256_S256x256_1_0_0_1_n_n := ⟨rfl, rfl, rfl, rfl, rfl, rfl⟩
theorem plain_small : IsPlain dot_S256x256_S256x256_S256x256_1_0_0_1_n_n := ⟨rfl, rfl, rfl, rfl, rfl, rfl⟩

/-- The bias row spread over 256 rows, read at an entry. -/
theorem bias_rows (x : (⟨2, ![1, 256]⟩ : Shape).Idx → EReal) (h : (⟨2, ![1, 256]⟩ : Shape).Broadcasts ⟨2, ![256, 256]⟩)
    (p q : Fin 256) : broadcastTo (⟨2, ![256, 256]⟩ : Shape) x h (ix2 p q) = x (ix2 (0 : Fin 1) q) :=
  broadcastTo_apply x h _ _ fun a => match a with
    | ⟨0, _⟩ => rfl
    | ⟨1, _⟩ => rfl

/-- One relation's term of the body: the row tile times the features, times the weights. -/
theorem rel_term (v0 : Vec Ideal S4096x256 .bf16) (v2 : Vec Ideal S1x256x4096 .f32) (v7 : Vec Ideal S1x256x256 .f32) (p q : Fin 256) :
    matmul (F := Ideal) (φ₁ := .bf16) (φ₂ := .bf16) dot_S256x256_S256x256_S256x256_1_0_0_1_n_n none
        (truncf (F := Ideal) (φ := .f32) .bf16 (matmul (F := Ideal) (φ₁ := .bf16) (φ₂ := .bf16) dot_S256x4096_S4096x256_S256x256_1_0_0_1_n_n none
            (truncf (F := Ideal) (φ := .f32) .bf16 (shapeCast S256x4096 v2 shapeCasts_S1x256x4096_S256x4096 : FVec Ideal S256x4096 .f32) bitsLt_bf16_f32)
            (shapeCast S4096x256 v0 shapeCasts_S4096x256_S4096x256 : FVec Ideal S4096x256 .bf16)
            (constant (F := Ideal) S256x256 .f32 0x00000000#32)) bitsLt_bf16_f32)
        (truncf (F := Ideal) (φ := .f32) .bf16 (shapeCast S256x256 v7 shapeCasts_S1x256x256_S256x256 : FVec Ideal S256x256 .f32) bitsLt_bf16_f32)
        (constant (F := Ideal) S256x256 .f32 0x00000000#32) (ix2 p q)
      = ∑ k : Fin 256, (∑ n : Fin 4096, v2 (ix3 (0 : Fin 1) p n) * v0 (ix2 n k)) * v7 (ix3 (0 : Fin 1) k q) := by
  rw [matmul_zero_at plain_small]
  refine Finset.sum_congr rfl fun k _ => ?_
  rw [truncf_apply, truncf_apply, matmul_zero_at plain_big, shapeCast_1ab_ab_apply]
  refine congrArg (· * _) (Finset.sum_congr rfl fun n _ => ?_)
  rw [truncf_apply, shapeCast_1ab_ab_apply, shapeCast_self]

/-- The second layer's payload (stored as f32) at row `p` of the tile, feature `q`. -/
theorem pay1_apply (v0 : Vec Ideal S4096x256 .bf16) (v2 : Vec Ideal S1x256x4096 .f32) (v7 : Vec Ideal S1x256x256 .f32)
    (v11 : Vec Ideal S1x256x4096 .f32) (v16 : Vec Ideal S1x256x256 .f32) (v21 : Vec Ideal S1x256 .f32) (p q : Fin 256) :
    k1_pay1 v0 v2 v7 v11 v16 v21 (ix2 p q)
      = max ((∑ k : Fin 256, (∑ n : Fin 4096, v2 (ix3 (0 : Fin 1) p n) * v0 (ix2 n k)) * v7 (ix3 (0 : Fin 1) k q))
          + (∑ k : Fin 256, (∑ n : Fin 4096, v11 (ix3 (0 : Fin 1) p n) * v0 (ix2 n k)) * v16 (ix3 (0 : Fin 1) k q))
          + v21 (ix2 (0 : Fin 1) q)) 0 := by
  unfold k1_pay1
  rw [maximumf_apply, addf_apply, addf_apply, rel_term, rel_term, bias_rows, shapeCast_self, broadcast_apply]
  exact congrArg (max _) Ideal.ofBits_zero_f32

/-- The first layer's payload (stored as bf16: the same extended reals) at row `p` of the tile, feature `q`. -/
theorem pay0_apply (v0 : Vec Ideal S4096x256 .bf16) (v2 : Vec Ideal S1x256x4096 .f32) (v7 : Vec Ideal S1x256x256 .f32)
    (v11 : Vec Ideal S1x256x4096 .f32) (v16 : Vec Ideal S1x256x256 .f32) (v21 : Vec Ideal S1x256 .f32) (p q : Fin 256) :
    k0_pay1 v0 v2 v7 v11 v16 v21 (ix2 p q)
      = max ((∑ k : Fin 256, (∑ n : Fin 4096, v2 (ix3 (0 : Fin 1) p n) * v0 (ix2 n k)) * v7 (ix3 (0 : Fin 1) k q))
          + (∑ k : Fin 256, (∑ n : Fin 4096, v11 (ix3 (0 : Fin 1) p n) * v0 (ix2 n k)) * v16 (ix3 (0 : Fin 1) k q))
          + v21 (ix2 (0 : Fin 1) q)) 0 := by
  unfold k0_pay1
  rw [truncf_apply, maximumf_apply, addf_apply, addf_apply, rel_term, rel_term, bias_rows, shapeCast_self, broadcast_apply]
  exact congrArg (max _) Ideal.ofBits_zero_f32

end Cert.KernelIdeal.Pay

end
-- ==== Proof.Spec.lean ====
/-
  The mathematics of one multi-relation graph-convolution layer over the extended reals, in the two
  arrangements the two programs use, and the law that joins them.

  With adjacency matrices `A a` (two relations, 4096 x 4096), node features `h` (4096 x 256), weights `W a`
  (256 x 256) and a bias row `b`, a layer is `relu (Σ_a A a · h · W a + b)`.  One program multiplies
  `(A a · h) · W a` (aggregate the neighbours first, then project); the other `A a · (h · W a)`, with the two
  weight matrices laid side by side in one 256 x 512 matrix (project first, then aggregate).  Matrix products
  are associative over the reals; over the extended reals the law needs every entry to be a real number.
-/
import Idealize.ShloMosaic.Lib.ValueIdx
import Idealize.ShloMosaic.PureOps.Ideal
import Mathlib.Data.EReal.Operations
import Mathlib.Algebra.BigOperators.Ring.Finset
import Mathlib.Tactic.Ring

open scoped BigOperators

noncomputable section

namespace Cert.Gcn

open Idealize.ShloMosaic Idealize.ShloMosaic.ValueIdx

/-- Node features, 4096 nodes by 256 features. -/
abbrev SX : Shape := ⟨2, ![4096, 256]⟩
/-- The two adjacency matrices. -/
abbrev SAdj : Shape := ⟨3, ![2, 4096, 4096]⟩
/-- The two weight matrices. -/
abbrev SWt : Shape := ⟨3, ![2, 256, 256]⟩
/-- The two weight matrices side by side: column `a * 256 + q` is column `q` of matrix `a`. -/
abbrev SCat : Shape := ⟨2, ![256, 512]⟩
/-- A bias as a row. -/
abbrev SRow : Shape := ⟨2, ![1, 256]⟩

/-- Every entry of an array is a real number (neither infinity). -/
def AllReal {S : Shape} (x : S.Idx → EReal) : Prop := ∀ i, ∃ r : ℝ, x i = (r : EReal)

/-- Column `a * 256 + q` of the side-by-side matrix. -/
abbrev catCol (a : Fin 2) (q : Fin 256) : Fin 512 := ⟨a.val * 256 + q.val, by have := a.isLt; have := q.isLt; omega⟩

/-- Relation `a`'s term at node `r`, feature `q`, aggregating first: `((A a · h) · W a) r q`. -/
def aggFirst (A : SAdj.Idx → EReal) (h : SX.Idx → EReal) (W : SWt.Idx → EReal) (a : Fin 2) (r : Fin 4096) (q : Fin 256) : EReal :=
  ∑ k : Fin 256, (∑ n : Fin 4096, A (ix3 a r n) * h (ix2 n k)) * W (ix3 a k q)

/-- The layer, aggregating first. -/
def layerAggFirst (A : SAdj.Idx → EReal) (h : SX.Idx → EReal) (W : SWt.Idx → EReal) (b : SRow.Idx → EReal) : SX.Idx → EReal :=
  fun i => max (aggFirst A h W 0 (i 0) (i 1) + aggFirst A h W 1 (i 0) (i 1) + b (ix2 0 (i 1))) 0

/-- Relation `a`'s term at node `r`, feature `q`, projecting first through the side-by-side weights:
    `(A a · (h · Wc)[:, a*256 ..]) r q`. -/
def projFirst (A : SAdj.Idx → EReal) (h : SX.Idx → EReal) (Wc : SCat.Idx → EReal) (a : Fin 2) (r : Fin 4096) (q : Fin 256) : EReal :=
  ∑ n : Fin 4096, A (ix3 a r n) * (∑ k : Fin 256, h (ix2 n k) * Wc (ix2 k (catCol a q)))

/-- The layer, projecting first. -/
def layerProjFirst (A : SAdj.Idx → EReal) (h : SX.Idx → EReal) (Wc : SCat.Idx → EReal) (b : SRow.Idx → EReal) : SX.Idx → EReal :=
  fun i => max (projFirst A h Wc 0 (i 0) (i 1) + projFirst A h Wc 1 (i 0) (i 1) + b (ix2 0 (i 1))) 0

/-- The two weight matrices laid side by side. -/
def catW (W : SWt.Idx → EReal) : SCat.Idx → EReal :=
  fun i => W (ix3 (⟨(i 1).val / 256, by have h : (i 1).val < 512 := (i 1).isLt; omega⟩ : Fin 2) (i 0) (⟨(i 1).val % 256, Nat.mod_lt _ (by norm_num)⟩ : Fin 256))

theorem layerAggFirst_ix2 (A : SAdj.Idx → EReal) (h : SX.Idx → EReal) (W : SWt.Idx → EReal) (b : SRow.Idx → EReal) (r : Fin 4096) (q : Fin 256) :
    layerAggFirst A h W b (ix2 r q) = max (aggFirst A h W 0 r q + aggFirst A h W 1 r q + b (ix2 0 q)) 0 := rfl

theorem layerProjFirst_ix2 (A : SAdj.Idx → EReal) (h : SX.Idx → EReal) (Wc : SCat.Idx → EReal) (b : SRow.Idx → EReal) (r : Fin 4096) (q : Fin 256) :
    layerProjFirst A h Wc b (ix2 r q) = max (projFirst A h Wc 0 r q + projFirst A h Wc 1 r q + b (ix2 0 q)) 0 := rfl

/-- The side-by-side matrix at column `a * 256 + q` is matrix `a` at column `q`. -/
theorem catW_apply (W : SWt.Idx → EReal) (a : Fin 2) (k q : Fin 256) : catW W (ix2 k (catCol a q)) = W (ix3 a k q) := by
  -- `q < 256`, so dividing `a * 256 + q` by 256 gives `a` and the remainder is `q`
  have hq : q.val < 256 := q.isLt
  have h1 : (a.val * 256 + q.val) / 256 = a.val := by omega
  have h2 : (a.val * 256 + q.val) % 256 = q.val := by omega
  unfold catW
  congr 1
  funext d
  match d with
  | ⟨0, _⟩ => exact Fin.ext h1
  | ⟨1, _⟩ => rfl
  | ⟨2, _⟩ => exact Fin.ext h2

/-- The coercion of the reals into the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An array of real entries is the coercion of a real array. -/
theorem AllReal.exists_eq {S : Shape} {x : S.Idx → EReal} (hx : AllReal x) :
    ∃ f : S.Idx → ℝ, x = fun i => ((f i : ℝ) : EReal) := by
  choose f hf using hx
  exact ⟨f, funext hf⟩

/-- On coerced real arrays, a relation's term aggregating first is the coercion of the same double sum of reals. -/
theorem aggFirst_coe (fA : SAdj.Idx → ℝ) (fh : SX.Idx → ℝ) (fW : SWt.Idx → ℝ) (a : Fin 2) (r : Fin 4096) (q : Fin 256) :
    aggFirst (fun i => ((fA i : ℝ) : EReal)) (fun i => ((fh i : ℝ) : EReal)) (fun i => ((fW i : ℝ) : EReal)) a r q
      = ((∑ k : Fin 256, (∑ n : Fin 4096, fA (ix3 a r n) * fh (ix2 n k)) * fW (ix3 a k q) : ℝ) : EReal) := by
  unfold aggFirst
  simp only [← EReal.coe_mul, coe_sum]

/-- Associativity of the two products, entry by entry, when every entry is real. -/
theorem aggFirst_eq_projFirst {A : SAdj.Idx → EReal} {h : SX.Idx → EReal} {W : SWt.Idx → EReal}
    (hA : AllReal A) (hh : AllReal h) (hW : AllReal W) (a : Fin 2) (r : Fin 4096) (q : Fin 256) :
    aggFirst A h W a r q = projFirst A h (catW W) a r q := by
  obtain ⟨fA, rfl⟩ := hA.exists_eq
  obtain ⟨fh, rfl⟩ := hh.exists_eq
  obtain ⟨fW, rfl⟩ := hW.exists_eq
  -- both sides are coercions of real double sums: the left one directly, the right one after reading the
  -- side-by-side matrix at column `a * 256 + q`
  rw [aggFirst_coe]
  unfold projFirst
  simp only [catW_apply, ← EReal.coe_mul, coe_sum]
  congr 1
  -- in the reals: distribute, exchange the two sums, and reassociate each product
  simp only [Finset.sum_mul, Finset.mul_sum]
  rw [Finset.sum_comm]
  refine Finset.sum_congr rfl fun n _ => Finset.sum_congr rfl fun k _ => ?_
  ring

/-- The two arrangements of a layer agree on real inputs. -/
theorem layer_eq {A : SAdj.Idx → EReal} {h : SX.Idx → EReal} {W : SWt.Idx → EReal} (b : SRow.Idx → EReal)
    (hA : AllReal A) (hh : AllReal h) (hW : AllReal W) :
    layerAggFirst A h W b = layerProjFirst A h (catW W) b := by
  funext i
  obtain ⟨r, q, rfl⟩ : ∃ (r : Fin 4096) (q : Fin 256), i = ix2 r q := ⟨i 0, i 1, eq_ix2 i⟩
  rw [layerAggFirst_ix2, layerProjFirst_ix2, aggFirst_eq_projFirst hA hh hW, aggFirst_eq_projFirst hA hh hW]

/-- A layer of real inputs has real entries. -/
theorem layerAggFirst_real {A : SAdj.Idx → EReal} {h : SX.Idx → EReal} {W : SWt.Idx → EReal} {b : SRow.Idx → EReal}
    (hA : AllReal A) (hh : AllReal h) (hW : AllReal W) (hb : AllReal b) : AllReal (layerAggFirst A h W b) := by
  obtain ⟨fA, rfl⟩ := hA.exists_eq
  obtain ⟨fh, rfl⟩ := hh.exists_eq
  obtain ⟨fW, rfl⟩ := hW.exists_eq
  intro i
  obtain ⟨r, q, rfl⟩ : ∃ (r : Fin 4096) (q : Fin 256), i = ix2 r q := ⟨i 0, i 1, eq_ix2 i⟩
  obtain ⟨rb, hrb⟩ := hb (ix2 0 q)
  -- a sum of three reals, and its maximum with zero, are real
  refine ⟨max ((∑ k : Fin 256, (∑ n : Fin 4096, fA (ix3 0 r n) * fh (ix2 n k)) * fW (ix3 0 k q))
      + (∑ k : Fin 256, (∑ n : Fin 4096, fA (ix3 1 r n) * fh (ix2 n k)) * fW (ix3 1 k q)) + rb) 0, ?_⟩
  rw [layerAggFirst_ix2, aggFirst_coe, aggFirst_coe, hrb, ← EReal.coe_add, ← EReal.coe_add, EReal.coe_strictMono.monotone.map_max,
    EReal.coe_zero]

/-- Two stacked layers: the two arrangements agree on real inputs. -/
theorem two_layers_eq {A : SAdj.Idx → EReal} {x : SX.Idx → EReal} {W1 W2 : SWt.Idx → EReal} {b1 : SRow.Idx → EReal} (b2 : SRow.Idx → EReal)
    (hA : AllReal A) (hx : AllReal x) (hW1 : AllReal W1) (hb1 : AllReal b1) (hW2 : AllReal W2) :
    layerAggFirst A (layerAggFirst A x W1 b1) W2 b2
      = layerProjFirst A (layerProjFirst A x (catW W1) b1) (catW W2) b2 := by
  rw [← layer_eq b1 hA hx hW1, layer_eq b2 hA (layerAggFirst_real hA hx hW1 hb1) hW2]

end Cert.Gcn

end
-- ==== Proof.KVal1.lean ====
/-
  Pallas call 1 of the kernel's program: the array it leaves is one layer of its operands.

  Grid point `t` of 16 reads rows `256 t … 256 t + 255` of both adjacency matrices, the whole feature matrix, both
  weight matrices and the bias row, and writes rows `256 t … 256 t + 255` of the result: at row `p` of the tile and
  feature `q` it is the layer (aggregating first) at row `256 t + p`.  The sixteen tiles cover the 4096 rows.
-/
import proofs.«109948_g2000505246573141_pallasbulk_690_2_alg».proof.Proof.Gen.KernelIdeal.Frame
import proofs.«109948_g2000505246573141_pallasbulk_690_2_alg».proof.Proof.KPay
import proofs.«109948_g2000505246573141_pallasbulk_690_2_alg».proof.Proof.Spec
import Idealize.ShloMosaic.Lib.Pipeline.Value

set_option maxRecDepth 16384

open scoped BigOperators

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the adjacency tile and the result tile move with the point, everything else stays. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the first relation's adjacency tile at point `t` is row `256 t + p` of the matrix. -/
theorem adj_read0 (c : Dev nD) (t : Fin cfg1.N) (u : Fin 1) (p : Fin 256) (n : Fin 4096) (r : Fin 4096)
    (hr : r.val = t.val * 256 + p.val) :
    View.ld (iblk1 V c 0 t) r1_1 (ix3 u p n) = V c main_arg1 (ix3 (0 : Fin 2) r n) := by
  show V c main_arg1 (((cfg1.win 0).blk t).view.emb (r1_1.idx (ix3 u p n))) = V c main_arg1 (ix3 (0 : Fin 2) r n)
  obtain ⟨e0, e1, e2, -⟩ := idx_facts t
  have hu : u.val = 0 := by omega
  refine congrArg _ (funext fun x => Fin.ext ?_)
  match x with
  | ⟨0, _⟩ => show win1_0.index t (0 : Fin 3) * 2 + 1 * (0 + 1 * u.val) = 0; omega
  | ⟨1, _⟩ => show win1_0.index t (1 : Fin 3) * 256 + 1 * (0 + 1 * p.val) = r.val; omega
  | ⟨2, _⟩ => show win1_0.index t (2 : Fin 3) * 4096 + 1 * (0 + 1 * n.val) = n.val; omega

/-- The same for the second relation. -/
theorem adj_read1 (c : Dev nD) (t : Fin cfg1.N) (u : Fin 1) (p : Fin 256) (n : Fin 4096) (r : Fin 4096)
    (hr : r.val = t.val * 256 + p.val) :
    View.ld (iblk1 V c 0 t) r1_3 (ix3 u p n) = V c main_arg1 (ix3 (1 : Fin 2) r n) := by
  show V c main_arg1 (((cfg1.win 0).blk t).view.emb (r1_3.idx (ix3 u p n))) = V c main_arg1 (ix3 (1 : Fin 2) r n)
  obtain ⟨e0, e1, e2, -⟩ := idx_facts t
  have hu : u.val = 0 := by omega
  refine congrArg _ (funext fun x => Fin.ext ?_)
  match x with
  | ⟨0, _⟩ => show win1_0.index t (0 : Fin 3) * 2 + 1 * (1 + 1 * u.val) = 1; omega
  | ⟨1, _⟩ => show win1_0.index t (1 : Fin 3) * 256 + 1 * (0 + 1 * p.val) = r.val; omega
  | ⟨2, _⟩ => show win1_0.index t (2 : Fin 3) * 4096 + 1 * (0 + 1 * n.val) = n.val; omega

/-- The feature matrix is read whole at every point. -/
theorem feat_read (c : Dev nD) (t : Fin cfg1.N) (n : Fin 4096) (k : Fin 256) :
    View.ld (iblk1 V c 1 t) r1_0 (ix2 n k) = V c main_v3 (ix2 n k) := by
  show V c main_v3 (((cfg1.win 1).blk t).view.emb (r1_0.idx (ix2 n k))) = V c main_v3 (ix2 n k)
  obtain ⟨-, -, -, e0, e1, -⟩ := idx_facts t
  refine congrArg _ (funext fun x => Fin.ext ?_)
  match x with
  | ⟨0, _⟩ => show win1_1.index t (0 : Fin 2) * 4096 + 1 * (0 + 1 * n.val) = n.val; omega
  | ⟨1, _⟩ => show win1_1.index t (1 : Fin 2) * 256 + 1 * (0 + 1 * k.val) = k.val; omega

/-- The first relation's weights are read whole at every point. -/
theorem wt_read0 (c : Dev nD) (t : Fin cfg1.N) (u : Fin 1) (k q : Fin 256) :
    View.ld (iblk1 V c 2 t) r1_2 (ix3 u k q) = V c main_arg4 (ix3 (0 : Fin 2) k q) := by
  show V c main_arg4 (((cfg1.win 2).blk t).view.emb (r1_2.idx (ix3 u k q))) = V c main_arg4 (ix3 (0 : Fin 2) k q)
  obtain ⟨-, -, -, -, -, e0, e1, e2, -⟩ := idx_facts t
  have hu : u.val = 0 := by omega
  refine congrArg _ (funext fun x => Fin.ext ?_)
  match x with
  | ⟨0, _⟩ => show win1_2.index t (0 : Fin 3) * 2 + 1 * (0 + 1 * u.val) = 0; omega
  | ⟨1, _⟩ => show win1_2.index t (1 : Fin 3) * 256 + 1 * (0 + 1 * k.val) = k.val; omega
  | ⟨2, _⟩ => show win1_2.index t (2 : Fin 3) * 256 + 1 * (0 + 1 * q.val) = q.val; omega

/-- The same for the second relation. -/
theorem wt_read1 (c : Dev nD) (t : Fin cfg1.N) (u : Fin 1) (k q : Fin 256) :
    View.ld (iblk1 V c 2 t) r1_4 (ix3 u k q) = V c main_arg4 (ix3 (1 : Fin 2) k q) := by
  show V c main_arg4 (((cfg1.win 2).blk t).view.emb (r1_4.idx (ix3 u k q))) = V c main_arg4 (ix3 (1 : Fin 2) k q)
  obtain ⟨-, -, -, -, -, e0, e1, e2, -⟩ := idx_facts t
  have hu : u.val = 0 := by omega
  refine congrArg _ (funext fun x => Fin.ext ?_)
  match x with
  | ⟨0, _⟩ => show win1_2.index t (0 : Fin 3) * 2 + 1 * (1 + 1 * u.val) = 1; omega
  | ⟨1, _⟩ => show win1_2.index t (1 : Fin 3) * 256 + 1 * (0 + 1 * k.val) = k.val; omega
  | ⟨2, _⟩ => show win1_2.index t (2 : Fin 3) * 256 + 1 * (0 + 1 * q.val) = q.val; omega

/-- The bias row is read whole at every point. -/
theorem bias_read (c : Dev nD) (t : Fin cfg1.N) (u : Fin 1) (q : Fin 256) :
    View.ld (iblk1 V c 3 t) r1_5 (ix2 u q) = V c main_v2 (ix2 (0 : Fin 1) q) := by
  show V c main_v2 (((cfg1.win 3).blk t).view.emb (r1_5.idx (ix2 u q))) = V c main_v2 (ix2 (0 : Fin 1) q)
  obtain ⟨-, -, -, -, -, -, -, -, e0, e1, -⟩ := idx_facts t
  have hu : u.val = 0 := by omega
  refine congrArg _ (funext fun x => Fin.ext ?_)
  match x with
  | ⟨0, _⟩ => show win1_3.index t (0 : Fin 2) * 1 + 1 * (0 + 1 * u.val) = 0; omega
  | ⟨1, _⟩ => show win1_3.index t (1 : Fin 2) * 256 + 1 * (0 + 1 * q.val) = q.val; omega

/-- Where row `p`, feature `q` of point `t`'s result tile sits in the result array. -/
theorem out_emb (t : Fin cfg1.N) (p q : Fin 256) (r : Fin 4096) (hr : r.val = t.val * 256 + p.val) :
    ((cfg1.win 4).blk t).view.emb (ix2 p q) = ix2 r q := by
  obtain ⟨-, -, -, -, -, -, -, -, -, -, e0, e1⟩ := idx_facts t
  funext x; apply Fin.ext
  match x with
  | ⟨0, _⟩ => show win1_4.index t (0 : Fin 2) * 256 + 1 * p.val = r.val; omega
  | ⟨1, _⟩ => show win1_4.index t (1 : Fin 2) * 256 + 1 * q.val = q.val; omega

/-- WHAT POINT `t` WRITES BACK is its tile of the layer of the operands as the call finds them. -/
theorem flushed_eq (c : Dev nD) (t : Fin cfg1.N) :
    (dat1 V c).flushed 4 t = ((cfg1.win 4).blk t).view.read (Elt Ideal)
      (layerAggFirst (V c main_arg1) (V c main_v3) (V c main_arg4) (V c main_v2)) := by
  show (cfg1.win 4).cut (grid1.coords t) ((dat1 V c).after 4 t) = _
  rw [after1_4]
  unfold out1_4
  rw [View.canon_unit_zero hz2]
  funext j
  obtain ⟨p, q, rfl⟩ : ∃ (p q : Fin 256), j = ix2 p q := ⟨j 0, j 1, eq_ix2 j⟩
  have hN : cfg1.N = 16 := N_1
  have hlt : t.val * 256 + p.val < 4096 := by have := t.isLt; have := p.isLt; omega
  show k1_pay1 (F := Ideal) _ _ _ _ _ _ (ix2 p q) = layerAggFirst _ _ _ _ (((cfg1.win 4).blk t).view.emb (ix2 p q))
  rw [out_emb t p q ⟨_, hlt⟩ rfl, layerAggFirst_ix2]
  refine (Pay.pay1_apply _ _ _ _ _ _ p q).trans ?_
  unfold aggFirst
  refine congrArg (max · 0) ?_
  refine congrArg₂ (· + ·) (congrArg₂ (· + ·) ?_ ?_) ?_
  · refine Finset.sum_congr rfl fun k _ => ?_
    rw [wt_read0 V c t 0 k q]
    refine congrArg (· * _) (Finset.sum_congr rfl fun n _ => ?_)
    rw [adj_read0 V c t 0 p n ⟨_, hlt⟩ rfl, feat_read]
  · refine Finset.sum_congr rfl fun k _ => ?_
    rw [wt_read1 V c t 0 k q]
    refine congrArg (· * _) (Finset.sum_congr rfl fun n _ => ?_)
    rw [adj_read1 V c t 0 p n ⟨_, hlt⟩ rfl, feat_read]
  · exact bias_read V c t 0 q

/-- An index of the result array is in point `t`'s tile iff each coordinate is in the tile's range. -/
theorem mem_blk (t : Fin cfg1.N) (i : S4096x256.Idx) :
    i ∈ ((cfg1.win 4).blk t).view.set ↔ ∀ a : Fin 2, win1_4.index t a * S256x256.size a ≤ (i a).val ∧ (i a).val < win1_4.index t a * S256x256.size a + S256x256.size a := by
  show i ∈ ((View.whole main_v4).slice (win1_4.rect t)).set ↔ _
  rw [View.set_slice_whole, Rect.mem_set_unit]
  exact Iff.rfl

/-- Every row of the result is in some point's tile. -/
theorem cover (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  have hN : cfg1.N = 16 := N_1
  have hlt : (i 0).val / 256 < cfg1.N := by omega
  refine ⟨⟨(i 0).val / 256, hlt⟩, flush1_4 _, ?_⟩
  obtain ⟨-, -, -, -, -, -, -, -, -, -, e0, e1⟩ := idx_facts ⟨(i 0).val / 256, hlt⟩
  have e0' : win1_4.index ⟨(i 0).val / 256, hlt⟩ (0 : Fin 2) = (i 0).val / 256 := e0
  rw [mem_blk]
  intro a
  match a with
  | ⟨0, _⟩ => show win1_4.index _ (0 : Fin 2) * 256 ≤ (i 0).val ∧ (i 0).val < win1_4.index _ (0 : Fin 2) * 256 + 256; omega
  | ⟨1, _⟩ => show win1_4.index _ (1 : Fin 2) * 256 ≤ (i 1).val ∧ (i 1).val < win1_4.index _ (1 : Fin 2) * 256 + 256; omega

/-- THE ARRAY the call leaves: the layer of its operands as it finds them. -/
theorem final (c : Dev nD) :
    (dat1 V c).arrAt 4 cfg1.N = layerAggFirst (V c main_arg1) (V c main_v3) (V c main_arg4) (V c main_v2) :=
  (dat1 V c).arrAt_eq_of_cover 4 _ (fun t _ => flushed_eq V c t) cover

end Cert.KernelIdeal.Val1

end
-- ==== Proof.SpecRow.lean ====
/-
  A bias vector as a row, and the host operations that do not change a value over the extended reals.
-/
import proofs.«109948_g2000505246573141_pallasbulk_690_2_alg».proof.Proof.Spec
import Idealize.ShloMosaic.Lib.ValueLayout
import Idealize.ShloMosaic.Lib.Pipeline.Value

noncomputable section

namespace Cert.Gcn

open Idealize.ShloMosaic Idealize.ShloMosaic.ValueIdx

/-- A bias vector. -/
abbrev SVec : Shape := ⟨1, ![256]⟩

/-- The bias vector as a `[1, 256]` row. -/
def rowOf (b : SVec.Idx → EReal) : SRow.Idx → EReal := fun i => b (ix1 (i 1))

theorem rowOf_real {b : SVec.Idx → EReal} (hb : AllReal b) : AllReal (rowOf b) := fun i => hb (ix1 (i 1))

/-- Reshaping a vector to a row is `rowOf`. -/
theorem shapeCast_row (b : SVec.Idx → EReal) (h : SVec.ShapeCasts SRow) : shapeCast SRow b h = rowOf b := by
  funext i
  obtain ⟨u, q, rfl⟩ : ∃ (u : Fin 1) (q : Fin 256), i = ix2 u q := ⟨i 0, i 1, eq_ix2 i⟩
  exact shapeCast_a_1a_apply b h u q

end Cert.Gcn

end
-- ==== Proof.KOut.lean ====
/-
  The kernel's program from its launch to its result: two layers, aggregating first.

  Before the two pallas_calls the host rounds the features to bf16 (the identity on extended reals) and reshapes
  the two bias vectors to rows.  The first call leaves one layer of the features, the second one layer of that.
-/
import proofs.«109948_g2000505246573141_pallasbulk_690_2_alg».proof.Proof.Gen.KernelIdeal.Frame
import proofs.«109948_g2000505246573141_pallasbulk_690_2_alg».proof.Proof.KVal0
import proofs.«109948_g2000505246573141_pallasbulk_690_2_alg».proof.Proof.KVal1
import proofs.«109948_g2000505246573141_pallasbulk_690_2_alg».proof.Proof.SpecRow
import Idealize.ShloMosaic.Lib.StableHlo.Run

set_option maxRecDepth 16384

noncomputable section

namespace Cert.KernelIdeal.Out

open Idealize.ShloMosaic Idealize.ShloMosaic.TcCoe Idealize.ShloMosaic.ValueIdx
open Idealize.SL Idealize.SL.Sem
open Cert.KernelIdeal Cert.KernelIdeal.Gen Cert.Gcn

variable (m : (ℓ : Loc nD τ sig) → Buf (Elt Ideal) ℓ) (ρ : Dev nD → PrngReg)

/-! ## The operands as the first call finds them -/

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg4 (c : Dev nD) : V1 m ρ c main_arg4 = m ((c : Thread nD τ).loc main_arg4) := by
  show StableHlo.after hostOps0 (W0 m ρ c) (Proc.devRef .tc main_arg4) = _
  after_results

/-- The features rounded to bf16 are the features. -/
theorem V1_v0 (c : Dev nD) : V1 m ρ c main_v0 = m ((c : Thread nD τ).loc main_arg0) := by
  show StableHlo.after hostOps0 (W0 m ρ c) (Proc.devRef .tc main_v0) = _
  after_results; rfl

/-- The first bias as a row. -/
theorem V1_v1 (c : Dev nD) : V1 m ρ c main_v1 = rowOf (m ((c : Thread nD τ).loc main_arg3)) := by
  show StableHlo.after hostOps0 (W0 m ρ c) (Proc.devRef .tc main_v1) = _
  after_results
  exact shapeCast_row _ _

/-- The second bias as a row. -/
theorem V1_v2 (c : Dev nD) : V1 m ρ c main_v2 = rowOf (m ((c : Thread nD τ).loc main_arg5)) := by
  show StableHlo.after hostOps0 (W0 m ρ c) (Proc.devRef .tc main_v2) = _
  after_results
  exact shapeCast_row _ _

/-! ## The operands as the second call finds them -/

theorem V2_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_arg1 m ρ c)

theorem V2_arg4 (c : Dev nD) : V2 m ρ c main_arg4 = m ((c : Thread nD τ).loc main_arg4) :=
  (W2_of_ne m ρ c main_arg4 (by decide)).trans (V1_arg4 m ρ c)

theorem V2_v2 (c : Dev nD) : V2 m ρ c main_v2 = rowOf (m ((c : Thread nD τ).loc main_arg5)) :=
  (W2_of_ne m ρ c main_v2 (by decide)).trans (V1_v2 m ρ c)

/-- The first call's result: one layer of the features. -/
theorem V2_v3 (c : Dev nD) : V2 m ρ c main_v3
    = layerAggFirst (m ((c : Thread nD τ).loc main_arg1)) (m ((c : Thread nD τ).loc main_arg0))
        (m ((c : Thread nD τ).loc main_arg2)) (rowOf (m ((c : Thread nD τ).loc main_arg3))) := by
  refine (W2_arr m ρ c 4).trans ((Val0.final (V1 m ρ) c).trans ?_)
  rw [V1_arg1, V1_v0, V1_arg2, V1_v1]

/-- THE RESULT: two layers of the features. -/
theorem result_eq (c : Dev nD) : W3 m ρ c (Proc.devRef .tc main_v4)
    = layerAggFirst (m ((c : Thread nD τ).loc main_arg1))
        (layerAggFirst (m ((c : Thread nD τ).loc main_arg1)) (m ((c : Thread nD τ).loc main_arg0))
          (m ((c : Thread nD τ).loc main_arg2)) (rowOf (m ((c : Thread nD τ).loc main_arg3))))
        (m ((c : Thread nD τ).loc main_arg4)) (rowOf (m ((c : Thread nD τ).loc main_arg5))) := by
  refine (W3_arr m ρ c 4).trans ((Val1.final (V2 m ρ) c).trans ?_)
  rw [V2_arg1, V2_v3, V2_arg4, V2_v2]

end Cert.KernelIdeal.Out

end
-- ==== Proof.RPay.lean ====
/-
  What the reference's layer body computes, entry by entry.

  The body of either pallas_call loads the whole feature matrix `h`, the two weight matrices laid side by side
  (256 x 512), the bias row and the two row tiles of the adjacency matrices (as `[1, 128, 4096]` slabs).  It
  multiplies `h` by the side-by-side weights once (4096 x 512), cuts the product into its left and right halves,
  multiplies each adjacency tile by its half, and stores, for row `p` of the tile and feature `q`,
  `max (Σ_n A0 p n · (Σ_k h n k · Wc k q) + Σ_n A1 p n · (Σ_k h n k · Wc k (256 + q)) + b q) 0`.
-/
import proofs.«109948_g2000505246573141_pallasbulk_690_2_alg».proof.Proof.Gen.ReferenceIdeal.Skeleton
import proofs.«109948_g2000505246573141_pallasbulk_690_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.Pay

open Idealize.ShloMosaic Idealize.ShloMosaic.ValueIdx Idealize.ShloMosaic.PlainDot
open Cert.ReferenceIdeal Cert.ReferenceIdeal.Gen

/-- A product with the plain dimension numbers into the zero accumulator. -/
theorem matmul_zero_at {R K N : ℕ} {d : DotDims (⟨2, ![R, K]⟩ : Shape) (⟨2, ![K, N]⟩ : Shape) (⟨2, ![R, N]⟩ : Shape)}
    (h : IsPlain d) (prec : Option ContractPrecision) {φ₁ φ₂ : FTy}
    (l : FVec Ideal (⟨2, ![R, K]⟩ : Shape) φ₁) (r : FVec Ideal (⟨2, ![K, N]⟩ : Shape) φ₂) (p : Fin R) (q : Fin N) :
    matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

theorem plain_proj : IsPlain dot_S4096x256_S256x512_S4096x512_1_0_0_1_n_n := ⟨rfl, rfl, rfl, rfl, rfl, rfl⟩
theorem plain_agg : IsPlain dot_S128x4096_S4096x256_S128x256_1_0_0_1_n_n := ⟨rfl, rfl, rfl, rfl, rfl, rfl⟩

/-- The bias row spread over 128 rows, read at an entry. -/
theorem bias_rows (x : (⟨2, ![1, 256]⟩ : Shape).Idx → EReal) (h : (⟨2, ![1, 256]⟩ : Shape).Broadcasts ⟨2, ![128, 256]⟩)
    (p : Fin 128) (q : Fin 256) : broadcastTo (⟨2, ![128, 256]⟩ : Shape) x h (ix2 p q) = x (ix2 (0 : Fin 1) q) :=
  broadcastTo_apply x h _ _ fun a => match a with
    | ⟨0, _⟩ => rfl
    | ⟨1, _⟩ => rfl

/-- Column `o + q` of the side-by-side weights. -/
abbrev colAt (o : ℕ) (ho : o ≤ 256) (q : Fin 256) : Fin 512 := ⟨o + q.val, by have := q.isLt; omega⟩

/-- One relation's term of the body: the adjacency tile times one half (at column offset `o`) of the projected
    features. -/
theorem rel_term (v0 : Vec Ideal S4096x256 .f32) (v2 : Vec Ideal S256x512 .f32) (v7 : Vec Ideal S1x128x4096 .f32)
    (o : ℕ) (hs : S4096x512.Slices ![0, o] S4096x256) (p : Fin 128) (q : Fin 256) (col : Fin 512) (hcol : col.val = o + q.val) :
    matmul (F := Ideal) (φ₁ := .f32) (φ₂ := .f32) dot_S128x4096_S4096x256_S128x256_1_0_0_1_n_n none
        (shapeCast S128x4096 v7 shapeCasts_S1x128x4096_S128x4096 : FVec Ideal S128x4096 .f32)
        (extractStridedSlice S4096x256 ![0, o]
          (matmul (F := Ideal) (φ₁ := .f32) (φ₂ := .f32) dot_S4096x256_S256x512_S4096x512_1_0_0_1_n_n none
            (shapeCast S4096x256 v0 shapeCasts_S4096x256_S4096x256 : FVec Ideal S4096x256 .f32)
            (shapeCast S256x512 v2 shapeCasts_S256x512_S256x512 : FVec Ideal S256x512 .f32)
            (constant (F := Ideal) S4096x512 .f32 0x00000000#32)) hs : FVec Ideal S4096x256 .f32)
        (constant (F := Ideal) S128x256 .f32 0x00000000#32) (ix2 p q)
      = ∑ n : Fin 4096, v7 (ix3 (0 : Fin 1) p n) * (∑ k : Fin 256, v0 (ix2 n k) * v2 (ix2 k col)) := by
  rw [matmul_zero_at plain_agg]
  refine Finset.sum_congr rfl fun n _ => ?_
  rw [shapeCast_1ab_ab_apply, slice2_axis1_apply o _ hs n q col hcol, matmul_zero_at plain_proj]
  refine congrArg (_ * ·) (Finset.sum_congr rfl fun k _ => ?_)
  rw [shapeCast_self, shapeCast_self]

/-- The body's payload at row `p` of the tile, feature `q` (the same text serves both calls). -/
theorem pay_apply_of (pay : Vec Ideal S4096x256 .f32 → Vec Ideal S256x512 .f32 → Vec Ideal S1x256 .f32 → Vec Ideal S1x128x4096 .f32 → Vec Ideal S1x128x4096 .f32 → FVec Ideal S128x256 .f32)
    (hpay : pay = k0_pay1 (F := Ideal))
    (v0 : Vec Ideal S4096x256 .f32) (v2 : Vec Ideal S256x512 .f32) (v4 : Vec Ideal S1x256 .f32)
    (v7 : Vec Ideal S1x128x4096 .f32) (v11 : Vec Ideal S1x128x4096 .f32) (p : Fin 128) (q : Fin 256) :
    pay v0 v2 v4 v7 v11 (ix2 p q)
      = max ((∑ n : Fin 4096, v7 (ix3 (0 : Fin 1) p n) * (∑ k : Fin 256, v0 (ix2 n k) * v2 (ix2 k (colAt 0 (by omega) q))))
          + (∑ n : Fin 4096, v11 (ix3 (0 : Fin 1) p n) * (∑ k : Fin 256, v0 (ix2 n k) * v2 (ix2 k (colAt 256 (by omega) q))))
          + v4 (ix2 (0 : Fin 1) q)) 0 := by
  subst hpay
  unfold k0_pay1
  rw [maximumf_apply, addf_apply, addf_apply, rel_term v0 v2 v7 0 _ p q (colAt 0 (by omega) q) rfl, rel_term v0 v2 v11 256 _ p q (colAt 256 (by omega) q) rfl,
    bias_rows, shapeCast_self, broadcast_apply]
  exact congrArg (max _) Ideal.ofBits_zero_f32

theorem pay0_apply (v0 : Vec Ideal S4096x256 .f32) (v2 : Vec Ideal S256x512 .f32) (v4 : Vec Ideal S1x256 .f32)
    (v7 : Vec Ideal S1x128x4096 .f32) (v11 : Vec Ideal S1x128x4096 .f32) (p : Fin 128) (q : Fin 256) :
    k0_pay1 v0 v2 v4 v7 v11 (ix2 p q)
      = max ((∑ n : Fin 4096, v7 (ix3 (0 : Fin 1) p n) * (∑ k : Fin 256, v0 (ix2 n k) * v2 (ix2 k (colAt 0 (by omega) q))))
          + (∑ n : Fin 4096, v11 (ix3 (0 : Fin 1) p n) * (∑ k : Fin 256, v0 (ix2 n k) * v2 (ix2 k (colAt 256 (by omega) q))))
          + v4 (ix2 (0 : Fin 1) q)) 0 :=
  pay_apply_of _ rfl v0 v2 v4 v7 v11 p q

theorem pay1_apply (v0 : Vec Ideal S4096x256 .f32) (v2 : Vec Ideal S256x512 .f32) (v4 : Vec Ideal S1x256 .f32)
    (v7 : Vec Ideal S1x128x4096 .f32) (v11 : Vec Ideal S1x128x4096 .f32) (p : Fin 128) (q : Fin 256) :
    k1_pay1 v0 v2 v4 v7 v11 (ix2 p q)
      = max ((∑ n : Fin 4096, v7 (ix3 (0 : Fin 1) p n) * (∑ k : Fin 256, v0 (ix2 n k) * v2 (ix2 k (colAt 0 (by omega) q))))
          + (∑ n : Fin 4096, v11 (ix3 (0 : Fin 1) p n) * (∑ k : Fin 256, v0 (ix2 n k) * v2 (ix2 k (colAt 256 (by omega) q))))
          + v4 (ix2 (0 : Fin 1) q)) 0 :=
  pay_apply_of _ rfl v0 v2 v4 v7 v11 p q

end Cert.ReferenceIdeal.Pay

end
-- ==== Proof.RVal0.lean ====
/-
  Pallas call 0 of the reference's program: the array it leaves is one layer of its operands.

  Grid point `t` of 32 reads the whole feature matrix, the side-by-side weights, the bias row and rows
  `128 t … 128 t + 127` of both adjacency matrices, and writes rows `128 t … 128 t + 127` of the result: at row `p`
  of the tile and feature `q` it is the layer (projecting first) at row `128 t + p`.  The thirty-two tiles cover
  the 4096 rows.
-/
import proofs.«109948_g2000505246573141_pallasbulk_690_2_alg».proof.Proof.Gen.ReferenceIdeal.Frame
import proofs.«109948_g2000505246573141_pallasbulk_690_2_alg».proof.Proof.RPay
import proofs.«109948_g2000505246573141_pallasbulk_690_2_alg».proof.Proof.Spec
import Idealize.ShloMosaic.Lib.Pipeline.Value

set_option maxRecDepth 16384

open scoped BigOperators

noncomputable section

namespace Cert.ReferenceIdeal.Val0

open Idealize.ShloMosaic Idealize.ShloMosaic.TcCoe Idealize.ShloMosaic.ValueIdx
open Idealize.SL Idealize.SL.Sem
open Cert.ReferenceIdeal Cert.ReferenceIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the adjacency tile and the result tile move with the point, everything else stays. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 2) = t.val ∧ win0_4.index t (1 : Fin 2) = 0 :=
  (by decide +kernel : ∀ t : Fin grid0.N, _)

/-- The feature matrix is read whole at every point. -/
theorem feat_read (c : Dev nD) (t : Fin cfg0.N) (n : Fin 4096) (k : Fin 256) :
    View.ld (iblk0 V c 0 t) r0_0 (ix2 n k) = V c main_call0_v0 (ix2 n k) := by
  show V c main_call0_v0 (((cfg0.win 0).blk t).view.emb (r0_0.idx (ix2 n k))) = V c main_call0_v0 (ix2 n k)
  obtain ⟨e0, e1, -⟩ := idx_facts t
  refine congrArg _ (funext fun x => Fin.ext ?_)
  match x with
  | ⟨0, _⟩ => show win0_0.index t (0 : Fin 2) * 4096 + 1 * (0 + 1 * n.val) = n.val; omega
  | ⟨1, _⟩ => show win0_0.index t (1 : Fin 2) * 256 + 1 * (0 + 1 * k.val) = k.val; omega

/-- The side-by-side weights are read whole at every point. -/
theorem wt_read (c : Dev nD) (t : Fin cfg0.N) (k : Fin 256) (col : Fin 512) :
    View.ld (iblk0 V c 1 t) r0_1 (ix2 k col) = V c main_call0_v3 (ix2 k col) := by
  show V c main_call0_v3 (((cfg0.win 1).blk t).view.emb (r0_1.idx (ix2 k col))) = V c main_call0_v3 (ix2 k col)
  obtain ⟨-, -, e0, e1, -⟩ := idx_facts t
  refine congrArg _ (funext fun x => Fin.ext ?_)
  match x with
  | ⟨0, _⟩ => show win0_1.index t (0 : Fin 2) * 256 + 1 * (0 + 1 * k.val) = k.val; omega
  | ⟨1, _⟩ => show win0_1.index t (1 : Fin 2) * 512 + 1 * (0 + 1 * col.val) = col.val; omega

/-- The bias row is read whole at every point. -/
theorem bias_read (c : Dev nD) (t : Fin cfg0.N) (u : Fin 1) (q : Fin 256) :
    View.ld (iblk0 V c 2 t) r0_2 (ix2 u q) = V c main_call0_v8 (ix2 (0 : Fin 1) q) := by
  show V c main_call0_v8 (((cfg0.win 2).blk t).view.emb (r0_2.idx (ix2 u q))) = V c main_call0_v8 (ix2 (0 : Fin 1) q)
  obtain ⟨-, -, -, -, e0, e1, -⟩ := idx_facts t
  have hu : u.val = 0 := by omega
  refine congrArg _ (funext fun x => Fin.ext ?_)
  match x with
  | ⟨0, _⟩ => show win0_2.index t (0 : Fin 2) * 1 + 1 * (0 + 1 * u.val) = 0; omega
  | ⟨1, _⟩ => show win0_2.index t (1 : Fin 2) * 256 + 1 * (0 + 1 * q.val) = q.val; omega

/-- Row `p` of the first relation's adjacency tile at point `t` is row `128 t + p` of the matrix. -/
theorem adj_read0 (c : Dev nD) (t : Fin cfg0.N) (u : Fin 1) (p : Fin 128) (n : Fin 4096) (r : Fin 4096)
    (hr : r.val = t.val * 128 + p.val) :
    View.ld (iblk0 V c 3 t) r0_3 (ix3 u p n) = V c main_arg1 (ix3 (0 : Fin 2) r n) := by
  show V c main_arg1 (((cfg0.win 3).blk t).view.emb (r0_3.idx (ix3 u p n))) = V c main_arg1 (ix3 (0 : Fin 2) r n)
  obtain ⟨-, -, -, -, -, -, e0, e1, e2, -⟩ := idx_facts t
  have hu : u.val = 0 := by omega
  refine congrArg _ (funext fun x => Fin.ext ?_)
  match x with
  | ⟨0, _⟩ => show win0_3.index t (0 : Fin 3) * 2 + 1 * (0 + 1 * u.val) = 0; omega
  | ⟨1, _⟩ => show win0_3.index t (1 : Fin 3) * 128 + 1 * (0 + 1 * p.val) = r.val; omega
  | ⟨2, _⟩ => show win0_3.index t (2 : Fin 3) * 4096 + 1 * (0 + 1 * n.val) = n.val; omega

/-- The same for the second relation. -/
theorem adj_read1 (c : Dev nD) (t : Fin cfg0.N) (u : Fin 1) (p : Fin 128) (n : Fin 4096) (r : Fin 4096)
    (hr : r.val = t.val * 128 + p.val) :
    View.ld (iblk0 V c 3 t) r0_4 (ix3 u p n) = V c main_arg1 (ix3 (1 : Fin 2) r n) := by
  show V c main_arg1 (((cfg0.win 3).blk t).view.emb (r0_4.idx (ix3 u p n))) = V c main_arg1 (ix3 (1 : Fin 2) r n)
  obtain ⟨-, -, -, -, -, -, e0, e1, e2, -⟩ := idx_facts t
  have hu : u.val = 0 := by omega
  refine congrArg _ (funext fun x => Fin.ext ?_)
  match x with
  | ⟨0, _⟩ => show win0_3.index t (0 : Fin 3) * 2 + 1 * (1 + 1 * u.val) = 1; omega
  | ⟨1, _⟩ => show win0_3.index t (1 : Fin 3) * 128 + 1 * (0 + 1 * p.val) = r.val; omega
  | ⟨2, _⟩ => show win0_3.index t (2 : Fin 3) * 4096 + 1 * (0 + 1 * n.val) = n.val; omega

/-- Where row `p`, feature `q` of point `t`'s result tile sits in the result array. -/
theorem out_emb (t : Fin cfg0.N) (p : Fin 128) (q : Fin 256) (r : Fin 4096) (hr : r.val = t.val * 128 + p.val) :
    ((cfg0.win 4).blk t).view.emb (ix2 p q) = ix2 r q := by
  obtain ⟨-, -, -, -, -, -, -, -, -, e0, e1⟩ := idx_facts t
  funext x; apply Fin.ext
  match x with
  | ⟨0, _⟩ => show win0_4.index t (0 : Fin 2) * 128 + 1 * p.val = r.val; omega
  | ⟨1, _⟩ => show win0_4.index t (1 : Fin 2) * 256 + 1 * q.val = q.val; omega

/-- WHAT POINT `t` WRITES BACK is its tile of the layer of the operands as the call finds them. -/
theorem flushed_eq (c : Dev nD) (t : Fin cfg0.N) :
    (dat0 V c).flushed 4 t = ((cfg0.win 4).blk t).view.read (Elt Ideal)
      (layerProjFirst (V c main_arg1) (V c main_call0_v0) (V c main_call0_v3) (V c main_call0_v8)) := by
  show (cfg0.win 4).cut (grid0.coords t) ((dat0 V c).after 4 t) = _
  rw [after0_4]
  unfold out0_4
  rw [View.canon_unit_zero hz2]
  funext j
  obtain ⟨p, q, rfl⟩ : ∃ (p : Fin 128) (q : Fin 256), j = ix2 p q := ⟨j 0, j 1, eq_ix2 j⟩
  have hN : cfg0.N = 32 := N_0
  have hlt : t.val * 128 + p.val < 4096 := by have := t.isLt; have := p.isLt; omega
  show k0_pay1 (F := Ideal) _ _ _ _ _ (ix2 p q) = layerProjFirst _ _ _ _ (((cfg0.win 4).blk t).view.emb (ix2 p q))
  rw [out_emb t p q ⟨_, hlt⟩ rfl, layerProjFirst_ix2]
  refine (Pay.pay0_apply _ _ _ _ _ p q).trans ?_
  unfold projFirst
  have hc0 : Pay.colAt 0 (by omega) q = catCol 0 q := Fin.ext (by show 0 + q.val = 0 * 256 + q.val; omega)
  have hc1 : Pay.colAt 256 (by omega) q = catCol 1 q := Fin.ext (by show 256 + q.val = 1 * 256 + q.val; omega)
  rw [hc0, hc1]
  refine congrArg (max · 0) ?_
  refine congrArg₂ (· + ·) (congrArg₂ (· + ·) ?_ ?_) ?_
  · refine Finset.sum_congr rfl fun n _ => ?_
    rw [adj_read0 V c t 0 p n ⟨_, hlt⟩ rfl]
    refine congrArg (HMul.hMul (α := EReal) (β := EReal) (γ := EReal) _) (Finset.sum_congr rfl fun k _ => ?_)
    rw [feat_read, wt_read]
  · refine Finset.sum_congr rfl fun n _ => ?_
    rw [adj_read1 V c t 0 p n ⟨_, hlt⟩ rfl]
    refine congrArg (HMul.hMul (α := EReal) (β := EReal) (γ := EReal) _) (Finset.sum_congr rfl fun k _ => ?_)
    rw [feat_read, wt_read]
  · exact bias_read V c t 0 q

/-- An index of the result array is in point `t`'s tile iff each coordinate is in the tile's range. -/
theorem mem_blk (t : Fin cfg0.N) (i : S4096x256.Idx) :
    i ∈ ((cfg0.win 4).blk t).view.set ↔ ∀ a : Fin 2, win0_4.index t a * S128x256.size a ≤ (i a).val ∧ (i a).val < win0_4.index t a * S128x256.size a + S128x256.size a := by
  show i ∈ ((View.whole main_call0_v11).slice (win0_4.rect t)).set ↔ _
  rw [View.set_slice_whole, Rect.mem_set_unit]
  exact Iff.rfl

/-- Every row of the result is in some point's tile. -/
theorem cover (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 32 := N_0
  have hlt : (i 0).val / 128 < cfg0.N := by omega
  refine ⟨⟨(i 0).val / 128, hlt⟩, flush0_4 _, ?_⟩
  obtain ⟨-, -, -, -, -, -, -, -, -, e0, e1⟩ := idx_facts ⟨(i 0).val / 128, hlt⟩
  have e0' : win0_4.index ⟨(i 0).val / 128, hlt⟩ (0 : Fin 2) = (i 0).val / 128 := e0
  rw [mem_blk]
  intro a
  match a with
  | ⟨0, _⟩ => show win0_4.index _ (0 : Fin 2) * 128 ≤ (i 0).val ∧ (i 0).val < win0_4.index _ (0 : Fin 2) * 128 + 128; omega
  | ⟨1, _⟩ => show win0_4.index _ (1 : Fin 2) * 256 ≤ (i 1).val ∧ (i 1).val < win0_4.index _ (1 : Fin 2) * 256 + 256; omega

/-- THE ARRAY the call leaves: the layer of its operands as it finds them. -/
theorem final (c : Dev nD) :
    (dat0 V c).arrAt 4 cfg0.N = layerProjFirst (V c main_arg1) (V c main_call0_v0) (V c main_call0_v3) (V c main_call0_v8) :=
  (dat0 V c).arrAt_eq_of_cover 4 _ (fun t _ => flushed_eq V c t) cover

end Cert.ReferenceIdeal.Val0

end
-- ==== Proof.RHost.lean ====
/-
  The reference's host operations before its two pallas_calls, read as values.

  The host pads each argument by nothing (the identity), lays each pair of weight matrices side by side (a
  transposition of the first two axes, then a reshape: column `a * 256 + q` of the result is column `q` of matrix
  `a`) and reshapes the two bias vectors to rows.
-/
import proofs.«109948_g2000505246573141_pallasbulk_690_2_alg».proof.Proof.Gen.ReferenceIdeal.Frame
import proofs.«109948_g2000505246573141_pallasbulk_690_2_alg».proof.Proof.SpecRow
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

namespace Cert.ReferenceIdeal.Host

open Idealize.ShloMosaic Idealize.ShloMosaic.TcCoe Idealize.ShloMosaic.ValueIdx
open Idealize.SL Idealize.SL.Sem
open Cert.ReferenceIdeal Cert.ReferenceIdeal.Gen Cert.Gcn

variable (m : (ℓ : Loc nD τ sig) → Buf (Elt Ideal) ℓ) (ρ : Dev nD → PrngReg)

/-! ## The three shapes of host operation, over abstract arrays -/

/-- A pad with no low padding and no interior padding onto the same shape is the identity: every index is inside the
    operand, at itself. -/
theorem pad_none {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  refine pad_apply_of_inside lo hi interior x v h hu j j fun a => ?_
  rw [hlo a, hint a, Fin.cast_eq_self]
  omega

/-- Two weight matrices padded by nothing, the first two axes exchanged, then reshaped from `[256, 2, 256]` to
    `[256, 512]`: entry `(k, col)` of the result sits at row-major position `k * 512 + col`, which in the
    `[256, 2, 256]` array is `(k, col / 256, col % 256)`, the transpose of `(col / 256, k, col % 256)`: the
    side-by-side matrix. -/
theorem cat_of_ops (W : SWt.Idx → EReal) {u : Shape} (v : u.Idx → EReal)
    (hp : SWt.Pads (![0, 0, 0] : Fin 3 → Nat) ![0, 0, 0] ![0, 0, 0] SWt) (hu : 0 < u.numel)
    (ht : SWt.Transposes [1, 0, 2] (⟨3, ![256, 2, 256]⟩ : Shape))
    (hc : (⟨3, ![256, 2, 256]⟩ : Shape).ShapeCasts SCat) :
    shapeCast SCat (transpose (⟨3, ![256, 2, 256]⟩ : Shape) [1, 0, 2]
      (pad SWt (![0, 0, 0] : Fin 3 → Nat) ![0, 0, 0] ![0, 0, 0] W v hp hu) ht) hc = catW W := by
  rw [pad_none _ _ _ W v hp hu (by decide) (by decide)]
  funext i
  obtain ⟨k, col, rfl⟩ : ∃ (k : Fin 256) (col : Fin 512), i = ix2 k col := ⟨i 0, i 1, eq_ix2 i⟩
  have hcol : col.val < 512 := col.isLt
  refine (shapeCast_apply _ hc (ix2 k col)
    (ix3 k (⟨col.val / 256, by omega⟩ : Fin 2) (⟨col.val % 256, Nat.mod_lt _ (by norm_num)⟩ : Fin 256)) ?_).trans ?_
  · rw [Shape.rowMajor_val_three, Shape.rowMajor_val_two]
    show (k.val * 2 + col.val / 256) * 256 + col.val % 256 = k.val * 512 + col.val
    omega
  · exact transpose_apply [1, 0, 2] W ht _
      (ix3 (⟨col.val / 256, by omega⟩ : Fin 2) k (⟨col.val % 256, Nat.mod_lt _ (by norm_num)⟩ : Fin 256))
      fun b => match b with | ⟨0, _⟩ => rfl | ⟨1, _⟩ => rfl | ⟨2, _⟩ => rfl

/-- A bias vector padded by nothing, then reshaped to a row. -/
theorem row_of_ops (b : SVec.Idx → EReal) {u : Shape} (v : u.Idx → EReal)
    (hp : SVec.Pads (![0] : Fin 1 → Nat) ![0] ![0] SVec) (hu : 0 < u.numel) (hc : SVec.ShapeCasts SRow) :
    shapeCast SRow (pad SVec (![0] : Fin 1 → Nat) ![0] ![0] b v hp hu) hc = rowOf b := by
  rw [pad_none _ _ _ b v hp hu (by decide) (by decide)]
  exact shapeCast_row b hc

/-! ## The six buffers -/

/-- No host operation writes the adjacency matrices. -/
theorem V1_arg1 (c : Dev nD) : V1 m ρ c main_arg1 = m ((c : Thread nD τ).loc main_arg1) := by
  show StableHlo.after hostOps0 (W0 m ρ c) (Proc.devRef .tc main_arg1) = _
  after_results

/-- The features padded by nothing are the features. -/
theorem V1_x (c : Dev nD) : V1 m ρ c main_call0_v0 = m ((c : Thread nD τ).loc main_arg0) := by
  show StableHlo.after hostOps0 (W0 m ρ c) (Proc.devRef .tc main_call0_v0) = _
  after_results
  exact pad_none (s := S4096x256) (α := EReal) ![0, 0] ![0, 0] ![0, 0] (m ((c : Thread nD τ).loc main_arg0))
    (sitofp (F := Ideal) .f32 (constantI S_ 32 0#32)) pads_S4096x256_S4096x256_000_000 h_S_ (by decide) (by decide)

/-- The first layer's weights side by side. -/
theorem V1_wc1 (c : Dev nD) : V1 m ρ c main_call0_v3 = catW (m ((c : Thread nD τ).loc main_arg2)) := by
  show StableHlo.after hostOps0 (W0 m ρ c) (Proc.devRef .tc main_call0_v3) = _
  after_results
  exact cat_of_ops (m ((c : Thread nD τ).loc main_arg2)) (sitofp (F := Ideal) .f32 (constantI S_ 32 0#32))
    pads_S2x256x256_S2x256x256_000_000_000 h_S_ transposes_S2x256x256_S256x2x256_1_0_2 shapeCasts_S256x2x256_S256x512

/-- The first bias as a row. -/
theorem V1_b1 (c : Dev nD) : V1 m ρ c main_call0_v8 = rowOf (m ((c : Thread nD τ).loc main_arg3)) := by
  show StableHlo.after hostOps0 (W0 m ρ c) (Proc.devRef .tc main_call0_v8) = _
  after_results
  exact row_of_ops (m ((c : Thread nD τ).loc main_arg3)) (sitofp (F := Ideal) .f32 (constantI S_ 32 0#32))
    pads_S256_S256_000 h_S_ shapeCasts_S256_S1x256

/-- The second layer's weights side by side. -/
theorem V1_wc2 (c : Dev nD) : V1 m ρ c main_call0_v6 = catW (m ((c : Thread nD τ).loc main_arg4)) := by
  show StableHlo.after hostOps0 (W0 m ρ c) (Proc.devRef .tc main_call0_v6) = _
  after_results
  exact cat_of_ops (m ((c : Thread nD τ).loc main_arg4)) (sitofp (F := Ideal) .f32 (constantI S_ 32 0#32))
    pads_S2x256x256_S2x256x256_000_000_000 h_S_ transposes_S2x256x256_S256x2x256_1_0_2 shapeCasts_S256x2x256_S256x512

/-- The second bias as a row. -/
theorem V1_b2 (c : Dev nD) : V1 m ρ c main_call0_v10 = rowOf (m ((c : Thread nD τ).loc main_arg5)) := by
  show StableHlo.after hostOps0 (W0 m ρ c) (Proc.devRef .tc main_call0_v10) = _
  after_results
  exact row_of_ops (m ((c : Thread nD τ).loc main_arg5)) (sitofp (F := Ideal) .f32 (constantI S_ 32 0#32))
    pads_S256_S256_000 h_S_ shapeCasts_S256_S1x256

end Cert.ReferenceIdeal.Host

end
-- ==== Proof.ROut.lean ====
/-
  The reference's program from its launch to its result: two layers, projecting first.

  The first call leaves one layer of the features as the host prepared them, the second one layer of that.
-/
import proofs.«109948_g2000505246573141_pallasbulk_690_2_alg».proof.Proof.Gen.ReferenceIdeal.Frame
import proofs.«109948_g2000505246573141_pallasbulk_690_2_alg».proof.Proof.RVal0
import proofs.«109948_g2000505246573141_pallasbulk_690_2_alg».proof.Proof.RVal1
import proofs.«109948_g2000505246573141_pallasbulk_690_2_alg».proof.Proof.SpecRow
import proofs.«109948_g2000505246573141_pallasbulk_690_2_alg».proof.Proof.RHost

set_option maxRecDepth 16384

noncomputable section

namespace Cert.ReferenceIdeal.Out

open Idealize.ShloMosaic Idealize.ShloMosaic.TcCoe Idealize.ShloMosaic.ValueIdx
open Idealize.SL Idealize.SL.Sem
open Cert.ReferenceIdeal Cert.ReferenceIdeal.Gen Cert.ReferenceIdeal.Host Cert.Gcn

variable (m : (ℓ : Loc nD τ sig) → Buf (Elt Ideal) ℓ) (ρ : Dev nD → PrngReg)

/-! ## The operands as the second call finds them -/

theorem V2_arg1 (c : Dev nD) : V2 m ρ c main_arg1 = m ((c : Thread nD τ).loc main_arg1) :=
  ((W2_arr m ρ c 3).trans (((dat0 (V1 m ρ) c).arrAt_in 3 rfl _).trans (A_eq0 (V1 m ρ) c 3))).trans (V1_arg1 m ρ c)

theorem V2_wc2 (c : Dev nD) : V2 m ρ c main_call0_v6 = catW (m ((c : Thread nD τ).loc main_arg4)) :=
  (W2_of_ne m ρ c main_call0_v6 (by decide)).trans (V1_wc2 m ρ c)

theorem V2_b2 (c : Dev nD) : V2 m ρ c main_call0_v10 = rowOf (m ((c : Thread nD τ).loc main_arg5)) :=
  (W2_of_ne m ρ c main_call0_v10 (by decide)).trans (V1_b2 m ρ c)

/-- The first call's result: one layer of the features. -/
theorem V2_x1 (c : Dev nD) : V2 m ρ c main_call0_v11
    = layerProjFirst (m ((c : Thread nD τ).loc main_arg1)) (m ((c : Thread nD τ).loc main_arg0))
        (catW (m ((c : Thread nD τ).loc main_arg2))) (rowOf (m ((c : Thread nD τ).loc main_arg3))) := by
  refine (W2_arr m ρ c 4).trans ((Val0.final (V1 m ρ) c).trans ?_)
  rw [V1_arg1, V1_x, V1_wc1, V1_b1]

/-- THE RESULT: two layers of the features. -/
theorem result_eq (c : Dev nD) : W3 m ρ c (Proc.devRef .tc main_v0)
    = layerProjFirst (m ((c : Thread nD τ).loc main_arg1))
        (layerProjFirst (m ((c : Thread nD τ).loc main_arg1)) (m ((c : Thread nD τ).loc main_arg0))
          (catW (m ((c : Thread nD τ).loc main_arg2))) (rowOf (m ((c : Thread nD τ).loc main_arg3))))
        (catW (m ((c : Thread nD τ).loc main_arg4))) (rowOf (m ((c : Thread nD τ).loc main_arg5))) := by
  refine (W3_arr m ρ c 4).trans ((Val1.final (V2 m ρ) c).trans ?_)
  rw [V2_arg1, V2_x1, V2_wc2, V2_b2]

end Cert.ReferenceIdeal.Out

end
-- ==== Proof.Fin.lean ====
/-
  From the precondition to real entries.

  The precondition says, of each of the six argument arrays, that the absolute value of every entry is below
  positive infinity (an all-true reduction of the comparisons, the six joined by `and`).  An extended real whose
  absolute value is below positive infinity is a real number.
-/
import proofs.«109948_g2000505246573141_pallasbulk_690_2_alg».proof.Pre_finite_inputs
import proofs.«109948_g2000505246573141_pallasbulk_690_2_alg».proof.Proof.Spec
import Idealize.ShloMosaic.Lib.ReduceAll

noncomputable section

namespace Cert.Gcn

open Idealize.ShloMosaic

/-- The scalar shape has one index. -/
instance : Subsingleton Cert.Pre_finite_inputs.S_.Idx := ⟨fun a b => funext fun d => d.elim0⟩

/-- An extended real whose absolute value `max x (-x)` is below the value of the word of positive infinity is a real
    number: that word denotes `⊤`, and the absolute value of either infinity is `⊤`, which is not below itself. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One conjunct of the precondition: if the all-true reduction of `|x| < +inf` over every axis is true, every entry
    of `x` is real. -/
theorem allReal_of_all {S : Shape} (x : FVec Ideal S .f32)
    (bc : Cert.Pre_finite_inputs.S_.BroadcastsInDim S (![] : Fin 0 → Fin S.rank)) {axes : List (Fin S.rank)}
    (hr : S.ReducesTo axes Cert.Pre_finite_inputs.S_) (hu : 0 < Cert.Pre_finite_inputs.S_.numel)
    (e : Host.reduce IntOp.andi
        (cmpf .olt (Host.absf x) (broadcastInDim S ![] bc (constant (F := Ideal) Cert.Pre_finite_inputs.S_ .f32 0x7F800000#32)))
        (constantI Cert.Pre_finite_inputs.S_ 1 1#1) hr hu ValueIdx.ix0 = 1#1) :
    AllReal (S := S) x := by
  intro i
  exact real_of_abs_lt_inf (x i) (Host.reduce_andi_all _ _ hr hu _ e i)

/-- An `and` of two one-bit arrays that is true at an index has both true there. -/
theorem andi_apply_eq_one {s : Shape} (a b : IVec s 1) (i : s.Idx) (h : andi a b i = 1#1) : a i = 1#1 ∧ b i = 1#1 :=
  IntOp.andi_eq_one.1 h

/-- Under the precondition every entry of every argument array is a real number. -/
theorem allReal_of_pre [Cert.Pre_finite_inputs.Facts]
    (x : FVec Ideal Cert.Pre_finite_inputs.S4096x256 .f32) (A : FVec Ideal Cert.Pre_finite_inputs.S2x4096x4096 .f32)
    (W1 : FVec Ideal Cert.Pre_finite_inputs.S2x256x256 .f32) (b1 : FVec Ideal Cert.Pre_finite_inputs.S256 .f32)
    (W2 : FVec Ideal Cert.Pre_finite_inputs.S2x256x256 .f32) (b2 : FVec Ideal Cert.Pre_finite_inputs.S256 .f32)
    (h : Cert.Pre_finite_inputs.fn (F := Ideal) x A W1 b1 W2 b2 = fun _ => 1#1) :
    AllReal x ∧ AllReal A ∧ AllReal W1 ∧ AllReal b1 ∧ AllReal W2 ∧ AllReal b2 := by
  have h0 := congrFun h ValueIdx.ix0
  unfold Cert.Pre_finite_inputs.fn Cert.Pre_finite_inputs.fn_part1 at h0
  dsimp only at h0
  -- the six reductions are joined left to right by `and`: split from the outside in
  obtain ⟨h1, hb2⟩ := andi_apply_eq_one _ _ _ h0
  obtain ⟨h2, hW2⟩ := andi_apply_eq_one _ _ _ h1
  obtain ⟨h3, hb1⟩ := andi_apply_eq_one _ _ _ h2
  obtain ⟨h4, hW1⟩ := andi_apply_eq_one _ _ _ h3
  obtain ⟨hx, hA⟩ := andi_apply_eq_one _ _ _ h4
  exact ⟨allReal_of_all x _ _ _ hx, allReal_of_all A _ _ _ hA, allReal_of_all W1 _ _ _ hW1,
    allReal_of_all b1 _ _ _ hb1, allReal_of_all W2 _ _ _ hW2, allReal_of_all b2 _ _ _ hb2⟩

end Cert.Gcn

end
-- ==== Proof.lean ====
/-
  Two stacked multi-relation graph-convolution layers, `relu (Σ_a A_a · h · W_a + b)` applied twice, computed two ways.

  The kernel's program aggregates first: each pallas_call tiles the 4096 rows in sixteen tiles of 256 and computes
  `(A_a · h) · W_a` per relation.  The reference's program projects first: it lays the two weight matrices side by
  side, and each pallas_call tiles the rows in thirty-two tiles of 128 and computes `A_a · (h · W)[:, a]`.  Changes of
  float format are the identity over the extended reals, and the padding the reference applies pads by nothing.
  Matrix products are associative where every entry is a real number, which the precondition (finite inputs) gives
  for the arguments and the layer's own arithmetic preserves for the first layer's output.

  Each program's frame is its generated frame; the run of each idealized program with its result buffer named is the
  same launch read once more at that buffer; each call's result array is read off the frame's proof data tile by
  tile; and the two results are joined by the associativity law.
-/
import proofs.«109948_g2000505246573141_pallasbulk_690_2_alg».proof.Defs
import proofs.«109948_g2000505246573141_pallasbulk_690_2_alg».proof.Proof.Gen.Kernel
import proofs.«109948_g2000505246573141_pallasbulk_690_2_alg».proof.Proof.Gen.Kernel.Frame
import proofs.«109948_g2000505246573141_pallasbulk_690_2_alg».proof.Proof.Gen.KernelIdeal
import proofs.«109948_g2000505246573141_pallasbulk_690_2_alg».proof.Proof.Gen.KernelIdeal.Frame
import proofs.«109948_g2000505246573141_pallasbulk_690_2_alg».proof.Proof.Gen.ReferenceIdeal
import proofs.«109948_g2000505246573141_pallasbulk_690_2_alg».proof.Proof.Gen.ReferenceIdeal.Frame
import proofs.«109948_g2000505246573141_pallasbulk_690_2_alg».proof.Proof.Gen.Pre_finite_inputs
import proofs.«109948_g2000505246573141_pallasbulk_690_2_alg».proof.Proof.KRun
import proofs.«109948_g2000505246573141_pallasbulk_690_2_alg».proof.Proof.RRun
import proofs.«109948_g2000505246573141_pallasbulk_690_2_alg».proof.Proof.KOut
import proofs.«109948_g2000505246573141_pallasbulk_690_2_alg».proof.Proof.ROut
import proofs.«109948_g2000505246573141_pallasbulk_690_2_alg».proof.Proof.Fin
import proofs.«109948_g2000505246573141_pallasbulk_690_2_alg».proof.Proof.SpecRow
import Idealize.ShloMosaic.Adequacy
import Idealize.ShloMosaic.Init

noncomputable section

namespace Cert.Proof

open Idealize.ShloMosaic Idealize.ShloMosaic.TcCoe Idealize.SL.Sem Cert.Gcn

/-- Run from memories that agree on the arguments, both idealized programs end with the same result: two layers of
    the features, which the two arrangements compute alike on real inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W3 m ρ c (Proc.devRef .tc Cert.KernelIdeal.main_v4), Cert.KernelIdeal.Run.run m ρ, ?_⟩
  refine (θ_run Cert.ReferenceIdeal.defs _ _).mono (fun r h c => ⟨(h c).1.trans ?_, (h c).2⟩) (Cert.ReferenceIdeal.Run.run m' ρ')
  show Cert.ReferenceIdeal.Gen.W3 m' ρ' c (Proc.devRef .tc Cert.ReferenceIdeal.main_v0)
    = Cert.KernelIdeal.Gen.W3 m ρ c (Proc.devRef .tc Cert.KernelIdeal.main_v4)
  rw [Cert.ReferenceIdeal.Out.result_eq, Cert.KernelIdeal.Out.result_eq]
  obtain ⟨h0, h1, h2, h3, h4, h5⟩ := hagree c
  rw [h0, h1, h2, h3, h4, h5]
  obtain ⟨hx, hA, hW1, hb1, hW2, hb2⟩ := allReal_of_pre _ _ _ _ _ _ (hpre c)
  exact (two_layers_eq _ hA hx hW1 (rowOf_real hb1) hW2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
